-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200x64 : Shape := ⟨2, ![200, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg2 : IVec S1000000 32) (main_arg4 : IVec S1000000 32) (main_v33 : IVec S_ 1) : IVec S_ 1 :=
  let main_c_12 : IVec S_ 32 := constantI S_ 32 0#32
  let main_v34 : IVec S1000000 32 := broadcastInDim S1000000 ![] bcast_S_S1000000 main_c_12
  let main_v35 : IVec S1000000 1 := cmpi .sge main_arg2 main_v34
  let main_c_13 : IVec S_ 32 := constantI S_ 32 100000#32
  let main_v36 : IVec S1000000 32 := broadcastInDim S1000000 ![] bcast_S_S1000000 main_c_13
  let main_v37 : IVec S1000000 1 := cmpi .slt main_arg2 main_v36
  let main_v38 : IVec S1000000 1 := andi main_v35 main_v37
  let main_c_14 : IVec S_ 1 := constantI S_ 1 1#1
  let main_v39 : IVec S_ 1 := (fun x v => Host.reduce IntOp.andi x v reducesTo_S1000000_S_d0 h_S_) main_v38 main_c_14
  let main_v40 : IVec S_ 1 := andi main_v33 main_v39
  let main_c_15 : IVec S_ 32 := constantI S_ 32 0#32
  let main_v41 : IVec S1000000 32 := broadcastInDim S1000000 ![] bcast_S_S1000000 main_c_15
  let main_v42 : IVec S1000000 1 := cmpi .sge main_arg4 main_v41
  let main_c_16 : IVec S_ 32 := constantI S_ 32 200#32
  let main_v43 : IVec S1000000 32 := broadcastInDim S1000000 ![] bcast_S_S1000000 main_c_16
  let main_v44 : IVec S1000000 1 := cmpi .slt main_arg4 main_v43
  let main_v45 : IVec S1000000 1 := andi main_v42 main_v44
  let main_c_17 : IVec S_ 1 := constantI S_ 1 1#1
  let main_v46 : IVec S_ 1 := (fun x v => Host.reduce IntOp.andi x v reducesTo_S1000000_S_d0 h_S_) main_v45 main_c_17
  let main_v47 : IVec S_ 1 := andi main_v40 main_v46
  main_v47

def fn_part1 {F : FTy → Type} [FloatOps F] (main_arg2 : IVec S1000000 32) (main_arg4 : IVec S1000000 32) (main_arg8 : FVec F S64x64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg4 main_v33

def fn {F : FTy → Type} [FloatOps F] (main_arg0 : FVec F S100000x64 .f32) (main_arg1 : FVec F S200x64 .f32) (main_arg2 : IVec S1000000 32) (main_arg3 : IVec S1000000 32) (main_arg4 : IVec S1000000 32) (main_arg5 : IVec S1000000 32) (main_arg6 : FVec F S64x64 .f32) (main_arg7 : FVec F S64x64 .f32) (main_arg8 : FVec F S64x64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg4 main_arg8 main_arg9 main_arg10 main_v13 main_v16
-- ==== Kernel.lean ====
abbrev S100000x64 : Shape := ⟨2, ![100000, 64]⟩
abbrev S200x64 : Shape := ⟨2, ![200, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩
abbrev S10000x64 : Shape := ⟨2, ![10000, 64]⟩

abbrev nBuf : Space → Nat
  | .hbm => 75
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S200x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x64, .f32⟩
  | .hbm, ⟨30, _⟩ => ⟨S1000000x64, .i1⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1, .i32⟩
  | .hbm, ⟨43, _⟩ => ⟨S_, .i32⟩
  | .hbm, ⟨44, _⟩ => ⟨S1000000x1, .i32⟩
  | .hbm, ⟨45, _⟩ => ⟨S1000000x1, .i1⟩
  | .hbm, ⟨46, _⟩ => ⟨S1x1, .i32⟩
  | .hbm, ⟨47, _⟩ => ⟨S1000000x1, .i32⟩
  | .hbm, ⟨48, _⟩ => ⟨S1000000x1, .i1⟩
  | .hbm, ⟨49, _⟩ => ⟨S1000000x1, .i1⟩
  | .hbm, ⟨50, _⟩ => ⟨S_, .i1⟩
  | .hbm, ⟨51, _⟩ => ⟨S1000000, .i1⟩
  | .hbm, ⟨52, _⟩ => ⟨S1000000x64, .f32⟩
  | .hbm, ⟨53, _⟩ => ⟨S1000000x64, .i1⟩
  | .hbm, ⟨54, _⟩ => ⟨S_, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S1000000, .f32⟩
  | .hbm, ⟨61, _⟩ => ⟨S1000000x1, .f32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S_, .f32⟩
  | .hbm, ⟨66, _⟩ => ⟨S100000x64, .f32⟩
  | .hbm, ⟨67, _⟩ => ⟨S1000000x1, .i32⟩
  | .hbm, ⟨68, _⟩ => ⟨S100000x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S1x64, .f32⟩
  | .hbm, ⟨73, _⟩ => ⟨S100000x64, .f32⟩
  | .hbm, ⟨74, _⟩ => ⟨S200x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_c : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  gather_S200x64_S1000000x1_S1000000x64_1_0_n_n_0_1_164_wf : GatherDims.WF S200x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S200x64_S64x64_S200x64_1_0_0_1_n_n_wf : DotDims.WF S200x64 S64x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S200x64_S1000000x1_S1000000x64_1_0_n_n_0_1_164 : GatherDims S200x64 S1000000x1 S1000000x64 where
  offsetDims := [1]
  collapsedSliceDims := [0]
  operandBatchingDims := []
  startIndicesBatchingDims := []
  startIndexMap := [0]
  indexVectorDim := 1
  sliceSizes := ![1, 64]
  wf := gather_S200x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S200x64 : Shape := ⟨2, ![200, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S200x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S1000000x64, .f32⟩
  | .hbm, ⟨30, _⟩ => ⟨S64x64, .f32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S1000000x1, .i1⟩
  | .hbm, ⟨36, _⟩ => ⟨S1000000x1, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S64x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S64x64, .f32⟩
  | .hbm, ⟨50, _⟩ => ⟨S200x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  gather_S200x64_S1000000x1_S1000000x64_1_0_n_n_0_1_164_wf : GatherDims.WF S200x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S200x64_S64x64_S200x64_1_0_0_1_n_n_wf : DotDims.WF S200x64 S64x64 S200x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S200x64_S1000000x1_S1000000x64_1_0_n_n_0_1_164 : GatherDims S200x64 S1000000x1 S1000000x64 where
  offsetDims := [1]
  collapsedSliceDims := [0]
  operandBatchingDims := []
  startIndicesBatchingDims := []
  startIndexMap := [0]
  indexVectorDim := 1
  sliceSizes := ![1, 64]
  wf := gather_S200x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf

class Facts : Prop extends Facts₀ where

variable [Facts]
-- ==== Proof.TakeInRange.lean ====
/-
  The kernel program's row lookup `take(table, i)`: the index is wrapped once when negative (`i + extent`), the row at
  the wrapped index is gathered, and a row whose wrapped index is outside `[0, extent - 1]` is replaced by a fill
  value. When every index already lies in `[0, extent)` nothing is wrapped out of range and nothing is filled: the
  lookup IS the gather at the wrapped indices.

  The argument, entry by entry. An index that is not negative fails the signed test `i < 0`, so the select that wraps
  keeps it: the start index of row `e` is `i e` itself (`wrap_apply`). A start index `s` with `0 ≤ s ≤ last` as signed
  words passes both signed tests, so the conjunction over the column's single entry, folded from 1, is 1
  (`inRange_apply`, over `foldl_andi_ones`: a fold by `and` from 1 over ones is 1). So the mask is 1 at every entry
  and the select keeps the gathered row everywhere.
-/
import proofs.«419830_j9062380994847_2_alg».proof.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Take

open Cert.KernelIdeal Idealize.ShloMosaic Facts₀ Facts

variable {F : FTy → Type} [FloatOps F] [Facts]

/-- The gather's start indices: each index, plus `ext` when it is negative, as a column. -/
def wrap (ext : BitVec 32) (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 ext))) i)

/-- Per entry of the looked-up array: is the row's start index in `[0, last]`? -/
def inRange (last : BitVec 32) (s : IVec S1000000x1 32) : IVec S1000000x64 1 :=
  broadcastInDim S1000000x64 ![0] bcast_S1000000_S1000000x64_0
    (Host.reduce IntOp.andi
      (andi (cmpi .sge s (broadcastInDim S1000000x1 ![] bcast_S_S1000000x1 (constantI S_ 32 0#32)))
        (cmpi .sle s (broadcastInDim S1000000x1 ![0, 1] bcast_S1x1_S1000000x1_0_1
          (broadcastInDim S1x1 ![1] bcast_S1_S1x1_1 (constantI S1 32 last)))))
      (constantI S_ 1 1#1) reducesTo_S1000000x1_S1000000_d1 h_S_)

/-- The fill value of an out-of-range row. -/
def fill : FVec F S1000000x64 .f32 :=
  broadcastInDim S1000000x64 ![] bcast_S_S1000000x64 (constant S_ .f32 0x7FC00000#32)

/-- The lookup into the node table (100000 rows). -/
def nodes (x : FVec F S100000x64 .f32) (i : IVec S1000000 32) : FVec F S1000000x64 .f32 :=
  select (inRange 99999#32 (wrap 100000#32 i))
    (Host.gather gather_S100000x64_S1000000x1_S1000000x64_1_0_n_n_0_1_164 x (wrap 100000#32 i)) fill

/-- The lookup into the relation table (200 rows). -/
def rels (x : FVec F S200x64 .f32) (i : IVec S1000000 32) : FVec F S1000000x64 .f32 :=
  select (inRange 199#32 (wrap 200#32 i))
    (Host.gather gather_S200x64_S1000000x1_S1000000x64_1_0_n_n_0_1_164 x (wrap 200#32 i)) fill

/-! ## The three facts the two lookups share -/

/-- A left fold by `and` that starts at 1 and meets only 1s is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (IntOp.andi_eq_one.2 ⟨h, hf a⟩)

/-- Row `k` of a column, as an index of the vector the column was made from. -/
abbrev rowOfCol (k : S1000000x1.Idx) : S1000000.Idx := fun a => match a with
  | ⟨0, _⟩ => ⟨(k 0).val, (k 0).isLt⟩

/-- The row of an entry of the looked-up array, as an index of the per-row vector. -/
abbrev rowOfEntry (j : S1000000x64.Idx) : S1000000.Idx := fun a => match a with
  | ⟨0, _⟩ => ⟨(j 0).val, (j 0).isLt⟩

/-- An index that is not negative is not wrapped: the start index of row `k` is the index itself. -/
theorem wrap_apply (ext : BitVec 32) (i : IVec S1000000 32) (h0 : ∀ e, 0 ≤ (i e).toInt) (k : S1000000x1.Idx) :
    wrap ext i k = i (rowOfCol k) := by
  unfold wrap
  rw [broadcastInDim_apply _ bcast_S1000000_S1000000x1_0 _ k (rowOfCol k) (fun a => match a with
    | ⟨0, _⟩ => by show (k 0).val = if (1000000 : Nat) = 1 then 0 else (k 0).val; rw [if_neg (by decide)])]
  rw [ValueIdx.select_apply]
  have hc : cmpi .slt i (broadcastInDim S1000000 ![] bcast_S_S1000000 (constantI S_ 32 0#32)) (rowOfCol k) = 0#1 := by
    refine ValueIdx.eq_zero_of_ne_one fun h1 => ?_
    have h2 : IntOp.cmpi .slt (i (rowOfCol k)) 0#32 = 1#1 := h1
    rw [IntOp.cmpi_slt] at h2
    have h3 := h0 (rowOfCol k)
    have h4 : (0#32 : BitVec 32).toInt = 0 := by decide
    omega
  rw [hc, ValueIdx.select_zero]

/-- Start indices that all lie in `[0, last]` as signed words make the mask 1 at every entry. -/
theorem inRange_apply (last : BitVec 32) (s : IVec S1000000x1 32)
    (h : ∀ k, 0 ≤ (s k).toInt ∧ (s k).toInt ≤ last.toInt) (j : S1000000x64.Idx) : inRange last s j = 1#1 := by
  unfold inRange
  rw [broadcastInDim_apply _ bcast_S1000000_S1000000x64_0 _ j (rowOfEntry j) (fun a => match a with
    | ⟨0, _⟩ => by show (j 0).val = if (1000000 : Nat) = 1 then 0 else (j 0).val; rw [if_neg (by decide)])]
  rw [Host.reduce_eq_foldl]
  refine foldl_andi_ones _ (fun k => ?_) _ _ rfl
  show IntOp.andi (IntOp.cmpi .sge (s k) 0#32) (IntOp.cmpi .sle (s k) last) = 1#1
  rw [IntOp.andi_eq_one, IntOp.cmpi_sge, IntOp.cmpi_sle]
  have h4 : (0#32 : BitVec 32).toInt = 0 := by decide
  rw [h4]
  exact h k

/-- THE GENERAL FACT: indices in `[0, last]` are kept by the wrap and pass the range test, at every entry. -/
theorem inRange_wrap (ext last : BitVec 32) (i : IVec S1000000 32)
    (h : ∀ e, 0 ≤ (i e).toInt ∧ (i e).toInt ≤ last.toInt) (j : S1000000x64.Idx) :
    inRange last (wrap ext i) j = 1#1 :=
  inRange_apply last _ (fun k => by rw [wrap_apply ext i (fun e => (h e).1) k]; exact h _) j

/-! ## The two lookups -/

/-- With every node index in `[0, 100000)` the lookup is the gather. -/
theorem nodes_eq (x : FVec F S100000x64 .f32) (i : IVec S1000000 32)
    (h : ∀ e, 0 ≤ (i e).toInt ∧ (i e).toInt < 100000) :
    nodes x i = Host.gather gather_S100000x64_S1000000x1_S1000000x64_1_0_n_n_0_1_164 x (wrap 100000#32 i) := by
  unfold nodes
  funext j
  have hl : (99999#32 : BitVec 32).toInt = 99999 := by decide
  rw [ValueIdx.select_apply, inRange_wrap 100000#32 99999#32 i (fun e => ⟨(h e).1, by have := (h e).2; omega⟩) j,
    ValueIdx.select_one]

/-- With every relation index in `[0, 200)` the lookup is the gather. -/
theorem rels_eq (x : FVec F S200x64 .f32) (i : IVec S1000000 32)
    (h : ∀ e, 0 ≤ (i e).toInt ∧ (i e).toInt < 200) :
    rels x i = Host.gather gather_S200x64_S1000000x1_S1000000x64_1_0_n_n_0_1_164 x (wrap 200#32 i) := by
  unfold rels
  funext j
  have hl : (199#32 : BitVec 32).toInt = 199 := by decide
  rw [ValueIdx.select_apply, inRange_wrap 200#32 199#32 i (fun e => ⟨(h e).1, by have := (h e).2; omega⟩) j,
    ValueIdx.select_one]

end Cert.KernelIdeal.Take

end
-- ==== Proof.NodeValue.lean ====
/-
  The kernel's result array. Each of the ten grid points writes one block of 10000 rows: the rows of the node-feature
  block times the (transposed) self weights, plus the rows of the aggregate block times the (transposed) forward
  weights, each product into a zero accumulator, plus the bias row. Row `n` of the result lies in block `n / 10000`
  and depends on row `n` of the two staged arrays only, so the ten blocks are the restrictions of ONE function of the
  whole arrays, `combine`, and they tile the result.

  The steps. A block product at entry (p, q) is the accumulator there plus the sum over the 64 contracted coordinates
  of row p of the left block times column q of the right one; the narrowing of the factors to bf16 is the identity on
  extended reals, and so is a cast of a shape to itself. So entry (p, q) of the stored block is the two such sums,
  each onto the zero word, added, plus the bias row at q. At grid point t the node-feature, aggregate and result
  windows sit at block row t (array row 10000·t + p for block row p), and the two weight windows and the bias window
  are their whole arrays; hence what point t writes back is block t of `combine`. Every row r < 100000 is in the block
  of point r / 10000, and every point writes its block back, so the array ends at `combine`.
-/
import proofs.«419830_j9062380994847_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Cert.KernelIdeal Cert.KernelIdeal.Gen Idealize.ShloMosaic Idealize.ShloMosaic.TcCoe Idealize.ShloMosaic.ValueIdx
open Idealize.SL.Sem

/-- Entry (n, o) of the result as a function of the whole staged arrays: `Σ_k A[n,k]·C[k,o]` and `Σ_k B[n,k]·D[k,o]`,
    each onto the zero accumulator, added, plus `E[0,o]`. -/
def combine (A B : FVec Ideal S100000x64 .f32) (C D : FVec Ideal S64x64 .f32) (E : FVec Ideal S1x64 .f32) :
    FVec Ideal S100000x64 .f32 :=
  fun i =>
    ((Ideal.ofBits .f32 0x00000000#32 + ∑ k : Fin 64, A (ix2 ⟨(i 0).val, (i 0).isLt⟩ k) * C (ix2 k ⟨(i 1).val, (i 1).isLt⟩))
      + (Ideal.ofBits .f32 0x00000000#32 + ∑ k : Fin 64, B (ix2 ⟨(i 0).val, (i 0).isLt⟩ k) * D (ix2 k ⟨(i 1).val, (i 1).isLt⟩)))
      + E (ix2 (0 : Fin 1) ⟨(i 1).val, (i 1).isLt⟩)

/-- The two zero offsets of a whole-block access, as the constant function. -/
theorem offsets_zero : (![0, 0] : Fin 2 → Nat) = fun _ => 0 := funext fun a => by fin_cases a <;> rfl

/-! ## The block product at an entry

The product contracts axis 1 of the left block with axis 0 of the right one: at output entry `i` and contraction
index `q` the left factor is read at (`i 0`, `q`) and the right factor at (`q`, `i 1`). The four coordinates, one
statement each. -/

theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product at entry (p, q): the accumulator there plus the sum over the 64 contracted coordinates of
    row p of the left block times column q of the right one. -/
theorem matmul_entry {φ₁ φ₂ : FTy} (L : FVec Ideal S10000x64 φ₁) (R : FVec Ideal S64x64 φ₂) (acc : FVec Ideal S10000x64 .f32)
    (p : Fin 10000) (q : Fin 64) :
    matmul dot_S10000x64_S64x64_S10000x64_1_0_0_1_n_n none L R acc (ix2 p q)
      = acc (ix2 p q) + ∑ k : Fin 64, L (ix2 p k) * R (ix2 k q) := by
  simp only [matmul]
  rw [Ideal.matmul_apply, ← Equiv.sum_comp (ValueIdx.contrEquiv1 dot_S10000x64_S64x64_S10000x64_1_0_0_1_n_n 64 rfl rfl).symm]
  refine congrArg (acc (ix2 p q) + ·) (Finset.sum_congr rfl fun k _ => ?_)
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The body's result at an entry -/

/-- Entry (p, q) of the block the body stores: the two block products, each onto the zero accumulator, added, plus
    the bias row at q. The narrowing to bf16 and the casts of a shape to itself change nothing here. -/
theorem payload_entry (x0 x1 : FVec Ideal S10000x64 .f32) (x2 x3 : FVec Ideal S64x64 .f32) (x4 : FVec Ideal S1x64 .f32)
    (p : Fin 10000) (q : Fin 64) :
    k0_pay1 (F := Ideal) x0 x1 x2 x3 x4 (ix2 p q)
      = ((Ideal.ofBits .f32 0x00000000#32 + ∑ k : Fin 64, x0 (ix2 p k) * x2 (ix2 k q))
        + (Ideal.ofBits .f32 0x00000000#32 + ∑ k : Fin 64, x1 (ix2 p k) * x3 (ix2 k q)))
        + x4 (ix2 (0 : Fin 1) q) := by
  unfold k0_pay1
  rw [addf_apply, addf_apply, matmul_entry, matmul_entry, constant_apply, broadcastTo_1b_ab_apply]
  simp only [shapeCast_self, truncf_apply]

/-- Entry (p, q) of what the body leaves in the result's staging buffer, from the five blocks it loads whole. -/
theorem block_entry (x0 x1 : FVec Ideal S10000x64 .f32) (x2 x3 : FVec Ideal S64x64 .f32) (x4 : FVec Ideal S1x64 .f32)
    (p : Fin 10000) (q : Fin 64) :
    out0_5 (F := Ideal) x0 x1 x2 x3 x4 (ix2 p q)
      = ((Ideal.ofBits .f32 0x00000000#32 + ∑ k : Fin 64, x0 (ix2 p k) * x2 (ix2 k q))
        + (Ideal.ofBits .f32 0x00000000#32 + ∑ k : Fin 64, x1 (ix2 p k) * x3 (ix2 k q)))
        + x4 (ix2 (0 : Fin 1) q) := by
  unfold out0_5
  rw [View.canon_unit_zero offsets_zero]
  simp only [View.ld_unit_zero (S := S10000x64) offsets_zero, View.ld_unit_zero (S := S64x64) offsets_zero,
    View.ld_unit_zero (S := S1x64) offsets_zero]
  exact payload_entry x0 x1 x2 x3 x4 p q

/-! ## Where each block sits in its array -/

/-- The printed index maps over the ten grid points: the node-feature, aggregate and result windows are at block
    row `t`, block column 0; the two weight windows and the bias window stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the node-feature block at point t is row 10000·t + p of the array. -/
theorem emb_rows0 (t : Fin cfg0.N) (p : Fin 10000) (k : Fin 64) (hb : t.val * 10000 + p.val < 100000) :
    ((cfg0.win 0).blk t).view.emb (ix2 p k) = (ix2 (⟨t.val * 10000 + p.val, hb⟩ : Fin 100000) k : S100000x64.Idx) := by
  obtain ⟨e0, e1, -⟩ := index_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- Row p of the aggregate block at point t is row 10000·t + p of the array. -/
theorem emb_rows1 (t : Fin cfg0.N) (p : Fin 10000) (k : Fin 64) (hb : t.val * 10000 + p.val < 100000) :
    ((cfg0.win 1).blk t).view.emb (ix2 p k) = (ix2 (⟨t.val * 10000 + p.val, hb⟩ : Fin 100000) k : S100000x64.Idx) := by
  obtain ⟨-, -, e0, e1, -⟩ := index_facts t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

/-- The self-weight block is the whole array at every point. -/
theorem emb_whole2 (t : Fin cfg0.N) (k q : Fin 64) :
    ((cfg0.win 2).blk t).view.emb (ix2 k q) = (ix2 k q : S64x64.Idx) := by
  obtain ⟨-, -, -, -, e0, e1, -⟩ := index_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The forward-weight block is the whole array at every point. -/
theorem emb_whole3 (t : Fin cfg0.N) (k q : Fin 64) :
    ((cfg0.win 3).blk t).view.emb (ix2 k q) = (ix2 k q : S64x64.Idx) := by
  obtain ⟨-, -, -, -, -, -, e0, e1, -⟩ := index_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The bias block is the whole one-row array at every point. -/
theorem emb_whole4 (t : Fin cfg0.N) (q : Fin 64) :
    ((cfg0.win 4).blk t).view.emb (ix2 (0 : Fin 1) q) = (ix2 (0 : Fin 1) q : S1x64.Idx) := by
  obtain ⟨-, -, -, -, -, -, -, -, e0, e1, -⟩ := index_facts t
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 64 + 1 * q.val = q.val; omega

/-- Row p of the result block at point t is row 10000·t + p of the result array. -/
theorem emb_rows5 (t : Fin cfg0.N) (p : Fin 10000) (q : Fin 64) (hb : t.val * 10000 + p.val < 100000) :
    ((cfg0.win 5).blk t).view.emb (ix2 p q) = (ix2 (⟨t.val * 10000 + p.val, hb⟩ : Fin 100000) q : S100000x64.Idx) := by
  obtain ⟨-, -, -, -, -, -, -, -, -, -, e0, e1⟩ := index_facts t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

/-! ## Each input block read off its array -/

/-- Entry (p, k) of the node-feature block at point t, off any contents of the array. -/
theorem read_rows0 (A : Vec Ideal S100000x64 .f32) (t : Fin cfg0.N) (p : Fin 10000) (hb : t.val * 10000 + p.val < 100000)
    (k : Fin 64) :
    ((cfg0.win 0).blk t).view.read (Elt Ideal) A (ix2 p k) = A (ix2 (⟨t.val * 10000 + p.val, hb⟩ : Fin 100000) k) := by
  show A (((cfg0.win 0).blk t).view.emb (ix2 p k)) = _
  rw [emb_rows0 t p k hb]

/-- Entry (p, k) of the aggregate block at point t. -/
theorem read_rows1 (B : Vec Ideal S100000x64 .f32) (t : Fin cfg0.N) (p : Fin 10000) (hb : t.val * 10000 + p.val < 100000)
    (k : Fin 64) :
    ((cfg0.win 1).blk t).view.read (Elt Ideal) B (ix2 p k) = B (ix2 (⟨t.val * 10000 + p.val, hb⟩ : Fin 100000) k) := by
  show B (((cfg0.win 1).blk t).view.emb (ix2 p k)) = _
  rw [emb_rows1 t p k hb]

/-- The self-weight block is the array. -/
theorem read_whole2 (C : Vec Ideal S64x64 .f32) (t : Fin cfg0.N) (k q : Fin 64) :
    ((cfg0.win 2).blk t).view.read (Elt Ideal) C (ix2 k q) = C (ix2 k q) := by
  show C (((cfg0.win 2).blk t).view.emb (ix2 k q)) = _
  rw [emb_whole2 t k q]

/-- The forward-weight block is the array. -/
theorem read_whole3 (D : Vec Ideal S64x64 .f32) (t : Fin cfg0.N) (k q : Fin 64) :
    ((cfg0.win 3).blk t).view.read (Elt Ideal) D (ix2 k q) = D (ix2 k q) := by
  show D (((cfg0.win 3).blk t).view.emb (ix2 k q)) = _
  rw [emb_whole3 t k q]

/-- The bias block is the one-row array. -/
theorem read_whole4 (E : Vec Ideal S1x64 .f32) (t : Fin cfg0.N) (q : Fin 64) :
    ((cfg0.win 4).blk t).view.read (Elt Ideal) E (ix2 (0 : Fin 1) q) = E (ix2 (0 : Fin 1) q) := by
  show E (((cfg0.win 4).blk t).view.emb (ix2 (0 : Fin 1) q)) = _
  rw [emb_whole4 t q]

/-! ## What a point writes back -/

/-- Over any contents of the five arrays: the body's result on the five blocks at point t is block t of `combine`
    of the arrays. Row 10000·t + p of the result needs row 10000·t + p of the two staged arrays only. -/
theorem block_result (A B : Vec Ideal S100000x64 .f32) (C D : Vec Ideal S64x64 .f32) (E : Vec Ideal S1x64 .f32)
    (t : Fin cfg0.N) :
    (cfg0.win 5).cut (grid0.coords t)
        (out0_5 (((cfg0.win 0).blk t).view.read (Elt Ideal) A) (((cfg0.win 1).blk t).view.read (Elt Ideal) B)
          (((cfg0.win 2).blk t).view.read (Elt Ideal) C) (((cfg0.win 3).blk t).view.read (Elt Ideal) D)
          (((cfg0.win 4).blk t).view.read (Elt Ideal) E))
      = ((cfg0.win 5).blk t).view.read (Elt Ideal) (combine A B C D E) := by
  funext j
  obtain ⟨p, q, rfl⟩ : ∃ (p : Fin 10000) (q : Fin 64), j = ix2 p q := ⟨j 0, j 1, eq_ix2 j⟩
  have ht : t.val < 10 := Nat.lt_of_lt_of_eq t.isLt N_0
  have hb : t.val * 10000 + p.val < 100000 := by have := p.isLt; omega
  show out0_5 (((cfg0.win 0).blk t).view.read (Elt Ideal) A) (((cfg0.win 1).blk t).view.read (Elt Ideal) B)
          (((cfg0.win 2).blk t).view.read (Elt Ideal) C) (((cfg0.win 3).blk t).view.read (Elt Ideal) D)
          (((cfg0.win 4).blk t).view.read (Elt Ideal) E) (ix2 p q)
      = combine A B C D E (((cfg0.win 5).blk t).view.emb (ix2 p q))
  rw [emb_rows5 t p q hb]
  refine (block_entry (((cfg0.win 0).blk t).view.read (Elt Ideal) A) (((cfg0.win 1).blk t).view.read (Elt Ideal) B)
          (((cfg0.win 2).blk t).view.read (Elt Ideal) C) (((cfg0.win 3).blk t).view.read (Elt Ideal) D)
          (((cfg0.win 4).blk t).view.read (Elt Ideal) E) p q).trans ?_
  simp only [read_rows0 A t p hb, read_rows1 B t p hb, read_whole2 C t, read_whole3 D t, read_whole4 E t]
  rfl

/-- What point t writes back to the result array is block t of `combine` of the arrays the region finds. -/
theorem flushed_eq (m : (ℓ : Loc nD τ sig) → Buf (Elt Ideal) ℓ) (c : Dev nD) (t : Fin cfg0.N) :
    (dats (F := Ideal) m 0 c).flushed 5 t
      = ((cfg0.win 5).blk t).view.read (Elt Ideal)
          (combine (V m c main_arg0) (V m c main_v11) (V m c main_v12) (V m c main_v13) (V m c main_v15)) := by
  show (cfg0.win 5).cut (grid0.coords t) ((dats m 0 c).after 5 t) = _
  rw [after0_5]
  unfold iblk
  exact block_result (V m c (Pipeline.arrRef spec0 0)) (V m c (Pipeline.arrRef spec0 1)) (V m c (Pipeline.arrRef spec0 2))
    (V m c (Pipeline.arrRef spec0 3)) (V m c (Pipeline.arrRef spec0 4)) t

/-! ## The ten blocks tile the result -/

/-- An index of the result array lies in point t's block iff each coordinate is in the block's range on its axis. -/
theorem mem_block (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v16).slice (win0_5.rect t)).set ↔ _
  rw [View.set_slice_whole, Rect.mem_set_unit]
  exact Iff.rfl

/-- Row r of the result lies in the block of point r / 10000, and every point writes its block back. -/
theorem blocks_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have hlt : (i 0).val / 10000 < cfg0.N := Nat.lt_of_lt_of_eq (by omega) hN.symm
  obtain ⟨-, -, -, -, -, -, -, -, -, -, e0, e1⟩ := index_facts ⟨(i 0).val / 10000, hlt⟩
  refine ⟨⟨(i 0).val / 10000, hlt⟩, flush0_5 _, ?_⟩
  rw [mem_block]
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, hlt⟩ (1 : Fin 2) * 64 ≤ (i 1).val
      ∧ (i 1).val < win0_5.index ⟨(i 0).val / 10000, hlt⟩ (1 : Fin 2) * 64 + 64
    rw [e1]
    omega

/-- The result window's array after the run is `combine` of the arrays the region finds. -/
theorem final5 (m : (ℓ : Loc nD τ sig) → Buf (Elt Ideal) ℓ) (c : Dev nD) :
    (dats (F := Ideal) m 0 c).arrAt 5 cfg0.N
      = combine (V m c main_arg0) (V m c main_v11) (V m c main_v12) (V m c main_v13) (V m c main_v15) :=
  (dats m 0 c).arrAt_eq_of_cover 5
    (combine (V m c main_arg0) (V m c main_v11) (V m c main_v12) (V m c main_v13) (V m c main_v15))
    (fun t _ => flushed_eq m c t) blocks_cover

end Cert.KernelIdeal.NodeValue

end
-- ==== Proof.HostValue.lean ====
/-
  What the kernel program's host operations hold when the region starts, and what the whole run leaves.
  Before the region: the two row lookups (node features at the source index, relation embeddings at the relation
  index), their difference masked by "the edge is a forward edge", and the masked messages summed into their
  destination rows — the AGGREGATE, one row per node —; the transposed self and forward weights; the bias as a row.
  The region then writes `combine` of those arrays (the node features and the aggregate each times its transposed
  weights, plus the bias row), and the one host operation after the region is the relation embeddings times the
  transposed relation weights.
-/
import proofs.«419830_j9062380994847_2_alg».proof.Proof.Gen.KernelIdeal.Frame
import proofs.«419830_j9062380994847_2_alg».proof.Proof.TakeInRange
import proofs.«419830_j9062380994847_2_alg».proof.Proof.NodeValue
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Facts₀ Facts

variable {F : FTy → Type} [FloatOps F]

/-- The forward-edge mask, per entry of the message array: 1 where the edge's direction word is 0, else 0. -/
def fwdMask (x5 : IVec S1000000 32) : FVec F S1000000x64 .f32 :=
  broadcastInDim S1000000x64 ![0, 1] Facts₀.bcast_S1000000x1_S1000000x64_0_1
    (broadcastInDim S1000000x1 ![0] Facts₀.bcast_S1000000_S1000000x1_0
      (uitofp .f32 (cmpi .eq x5 (broadcastInDim S1000000 ![] Facts₀.bcast_S_S1000000 (constantI S_ 32 0#32)))))

/-- The destination indices as the scatter's index column. -/
def dstColumn (x3 : IVec S1000000 32) : IVec S1000000x1 32 :=
  broadcastInDim S1000000x1 ![0] Facts₀.bcast_S1000000_S1000000x1_0 x3

/-- The aggregate: the masked messages `mask · (node row − relation row)` summed into their destination rows, from zero. -/
def aggregate (x0 : FVec F S100000x64 .f32) (x1 : FVec F S200x64 .f32) (x2 x3 x4 x5 : IVec S1000000 32) :
    FVec F S100000x64 .f32 :=
  Host.scatterAdd scatter_S100000x64_S1000000x1_S1000000x64_1_0_0_1
    (broadcastInDim S100000x64 ![] Facts₀.bcast_S_S100000x64 (constant S_ .f32 0x00000000#32))
    (dstColumn x3)
    (mulf (fwdMask x5) (subf (Take.nodes x0 x2) (Take.rels x1 x4)))

/-- A weight matrix transposed. -/
def transposed (x : FVec F S64x64 .f32) : FVec F S64x64 .f32 :=
  transpose S64x64 [1, 0] x Facts₀.transposes_S64x64_S64x64_1_0

/-- The bias as a one-row matrix. -/
def biasRow (x10 : FVec F S64 .f32) : FVec F S1x64 .f32 :=
  broadcastInDim S1x64 ![1] Facts₀.bcast_S64_S1x64_1 x10

/-- The relation output: the relation embeddings times the transposed relation weights. -/
def relOut (x1 : FVec F S200x64 .f32) (x9 : FVec F S64x64 .f32) : FVec F S200x64 .f32 :=
  Host.dotGeneral dot_S200x64_S64x64_S200x64_1_0_0_1_n_n none x1 (transposed x9)

/-- Running two lines one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

set_option maxHeartbeats 1000000 in
/-- The first lookup's line, from any contents: its result is the node lookup of the contents' node table and source
    indices. The three buffers the comparison passes through hold their values as they are. -/
theorem nodes_line (W : Valuation τ sig (Elt F)) :
    StableHlo.after (hostOps0 (F := F)) W (Proc.devRef .tc main_v0)
      = Take.nodes (W (Proc.devRef .tc main_arg0)) (W (Proc.devRef .tc main_arg2)) := by
  have rt_res : ∀ x : (⟨S1000000x64, .f32⟩ : BufTy).Contents (Elt F),
      (.of main_v0 : StableHlo.TRef sig ⟨S1000000x64, .f32⟩).toBuf x = x := fun _ => rfl
  have rt_mask : ∀ x : (⟨S1000000x64, .i1⟩ : BufTy).Contents (Elt F),
      (.of main_call0_v14 : StableHlo.TRef sig ⟨S1000000x64, .i1⟩).ofBuf ((.of main_call0_v14 : StableHlo.TRef sig ⟨S1000000x64, .i1⟩).toBuf x) = x :=
    fun _ => rfl
  have rt_all : ∀ x : (⟨S1000000, .i1⟩ : BufTy).Contents (Elt F),
      (.of main_call0_v12 : StableHlo.TRef sig ⟨S1000000, .i1⟩).ofBuf ((.of main_call0_v12 : StableHlo.TRef sig ⟨S1000000, .i1⟩).toBuf x) = x :=
    fun _ => rfl
  simp only [hostOps0]
  after_results_simp
  refine (rt_res _).trans ?_
  unfold Take.nodes
  refine congr (congr (congrArg select ?_) ?_) ?_
  · refine (rt_mask _).trans ?_
    unfold Take.inRange
    have spread : ∀ X Y : IVec S1000000 1, X = Y →
        broadcastInDim S1000000x64 ![0] Facts₀.bcast_S1000000_S1000000x64_0 X
          = broadcastInDim S1000000x64 ![0] Facts₀.bcast_S1000000_S1000000x64_0 Y := fun _ _ h => h ▸ rfl
    refine spread _ _ ?_
    refine (rt_all _).trans ?_
    congr 1
  · rfl
  · rfl

set_option maxHeartbeats 1000000 in
/-- The second lookup's line, from any contents: its result is the relation lookup of the contents' relation table and relation
    indices. The three buffers the comparison passes through hold their values as they are. -/
theorem rels_line (W : Valuation τ sig (Elt F)) :
    StableHlo.after (hostOps0_1 (F := F)) W (Proc.devRef .tc main_v1)
      = Take.rels (W (Proc.devRef .tc main_arg1)) (W (Proc.devRef .tc main_arg4)) := by
  have rt_res : ∀ x : (⟨S1000000x64, .f32⟩ : BufTy).Contents (Elt F),
      (.of main_v1 : StableHlo.TRef sig ⟨S1000000x64, .f32⟩).toBuf x = x := fun _ => rfl
  have rt_mask : ∀ x : (⟨S1000000x64, .i1⟩ : BufTy).Contents (Elt F),
      (.of main_call1_v14 : StableHlo.TRef sig ⟨S1000000x64, .i1⟩).ofBuf ((.of main_call1_v14 : StableHlo.TRef sig ⟨S1000000x64, .i1⟩).toBuf x) = x :=
    fun _ => rfl
  have rt_all : ∀ x : (⟨S1000000, .i1⟩ : BufTy).Contents (Elt F),
      (.of main_call1_v12 : StableHlo.TRef sig ⟨S1000000, .i1⟩).ofBuf ((.of main_call1_v12 : StableHlo.TRef sig ⟨S1000000, .i1⟩).toBuf x) = x :=
    fun _ => rfl
  simp only [hostOps0_1]
  after_results_simp
  refine (rt_res _).trans ?_
  unfold Take.rels
  refine congr (congr (congrArg select ?_) ?_) ?_
  · refine (rt_mask _).trans ?_
    unfold Take.inRange
    have spread : ∀ X Y : IVec S1000000 1, X = Y →
        broadcastInDim S1000000x64 ![0] Facts₀.bcast_S1000000_S1000000x64_0 X
          = broadcastInDim S1000000x64 ![0] Facts₀.bcast_S1000000_S1000000x64_0 Y := fun _ _ h => h ▸ rfl
    refine spread _ _ ?_
    refine (rt_all _).trans ?_
    congr 1
  · rfl
  · rfl

/-- The aggregate over given looked-up rows. -/
def aggregateOf (H R : FVec F S1000000x64 .f32) (x3 x5 : IVec S1000000 32) : FVec F S100000x64 .f32 :=
  Host.scatterAdd scatter_S100000x64_S1000000x1_S1000000x64_1_0_0_1
    (broadcastInDim S100000x64 ![] Facts₀.bcast_S_S100000x64 (constant S_ .f32 0x00000000#32))
    (dstColumn x3)
    (mulf (fwdMask x5) (subf H R))

theorem aggregate_eq (x0 : FVec F S100000x64 .f32) (x1 : FVec F S200x64 .f32) (x2 x3 x4 x5 : IVec S1000000 32) :
    aggregate x0 x1 x2 x3 x4 x5 = aggregateOf (Take.nodes x0 x2) (Take.rels x1 x4) x3 x5 := rfl

set_option maxHeartbeats 1000000 in
/-- The last line before the region, from any contents: the aggregate of the contents' looked-up rows. -/
theorem aggregate_line (W : Valuation τ sig (Elt F)) :
    StableHlo.after (hostOps0_2 (F := F)) W (Proc.devRef .tc main_v11)
      = aggregateOf (W (Proc.devRef .tc main_v0)) (W (Proc.devRef .tc main_v1)) (W (Proc.devRef .tc main_arg3)) (W (Proc.devRef .tc main_arg5)) := by
  simp only [hostOps0_2]
  after_results_simp
  rfl

variable (m : (ℓ : Loc nD τ sig) → Buf (Elt F) ℓ)

/-- A line leaves a buffer it does not write as it found it (the three lines before the region, buffer by buffer). -/
theorem line0_keeps (W : Valuation τ sig (Elt F)) (r : Ref sig .tc)
    (h : ∀ op ∈ (hostOps0 (F := F)), Proc.devRef .tc r ∉ op.writes) :
    StableHlo.after (hostOps0 (F := F)) W (Proc.devRef .tc r) = W (Proc.devRef .tc r) :=
  StableHlo.after_of_forall_not_mem _ _ h
theorem line1_keeps (W : Valuation τ sig (Elt F)) (r : Ref sig .tc)
    (h : ∀ op ∈ (hostOps0_1 (F := F)), Proc.devRef .tc r ∉ op.writes) :
    StableHlo.after (hostOps0_1 (F := F)) W (Proc.devRef .tc r) = W (Proc.devRef .tc r) :=
  StableHlo.after_of_forall_not_mem _ _ h

set_option maxHeartbeats 1000000 in
/-- The aggregate's buffer when the region starts. -/
theorem V_v11 (c : Dev nD) : V m c main_v11 = aggregate (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  show StableHlo.after (List.flatten [hostOps0, hostOps0_1, hostOps0_2]) (fun b => m (c, b)) (Proc.devRef .tc main_v11) = _
  rw [show List.flatten [hostOps0 (F := F), hostOps0_1, hostOps0_2] = hostOps0 ++ (hostOps0_1 ++ hostOps0_2) by
    simp only [List.flatten_cons, List.flatten_nil, List.append_nil]]
  rw [after_append, after_append, aggregate_line, aggregate_eq]
  -- each input of the aggregate, carried back through the lines that do not write it
  have e0 : StableHlo.after (hostOps0_1 (F := F)) (StableHlo.after hostOps0 fun b => m (c, b)) (Proc.devRef .tc main_v0)
      = Take.nodes (m ((c : Thread nD τ).loc main_arg0)) (m ((c : Thread nD τ).loc main_arg2)) := by
    rw [line1_keeps _ main_v0 (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide))), nodes_line]
  have a1 : StableHlo.after (hostOps0 (F := F)) (fun b => m (c, b)) (Proc.devRef .tc main_arg1) = m ((c : Thread nD τ).loc main_arg1) :=
    line0_keeps _ main_arg1 (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
  have a4 : StableHlo.after (hostOps0 (F := F)) (fun b => m (c, b)) (Proc.devRef .tc main_arg4) = m ((c : Thread nD τ).loc main_arg4) :=
    line0_keeps _ main_arg4 (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
  have e1 : StableHlo.after (hostOps0_1 (F := F)) (StableHlo.after hostOps0 fun b => m (c, b)) (Proc.devRef .tc main_v1)
      = Take.rels (m ((c : Thread nD τ).loc main_arg1)) (m ((c : Thread nD τ).loc main_arg4)) := by
    rw [rels_line, a1, a4]
  have e3 : StableHlo.after (hostOps0_1 (F := F)) (StableHlo.after hostOps0 fun b => m (c, b)) (Proc.devRef .tc main_arg3)
      = m ((c : Thread nD τ).loc main_arg3) := by
    rw [line1_keeps _ main_arg3 (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))]
    exact line0_keeps _ main_arg3 (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
  have e5 : StableHlo.after (hostOps0_1 (F := F)) (StableHlo.after hostOps0 fun b => m (c, b)) (Proc.devRef .tc main_arg5)
      = m ((c : Thread nD τ).loc main_arg5) := by
    rw [line1_keeps _ main_arg5 (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))]
    exact line0_keeps _ main_arg5 (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
  rw [e0, e1, e3, e5]

set_option maxHeartbeats 1000000 in
theorem V_v12 (c : Dev nD) : V m c main_v12 = transposed (m ((c : Thread nD τ).loc main_arg6)) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results_simp
  rfl

set_option maxHeartbeats 1000000 in
theorem V_v13 (c : Dev nD) : V m c main_v13 = transposed (m ((c : Thread nD τ).loc main_arg7)) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results_simp
  rfl

set_option maxHeartbeats 1000000 in
theorem V_v14 (c : Dev nD) : V m c main_v14 = transposed (m ((c : Thread nD τ).loc main_arg9)) := by
  show StableHlo.after (List.flatten [hostOps0, hostOps0_1, hostOps0_2]) (fun b => m (c, b)) (Proc.devRef .tc main_v14) = _
  simp only [hostOps0, hostOps0_1, hostOps0_2, List.flatten_cons, List.flatten_nil, List.append_nil, List.cons_append, List.nil_append]
  after_results_simp
  rfl

set_option maxHeartbeats 1000000 in
theorem V_v15 (c : Dev nD) : V m c main_v15 = biasRow (m ((c : Thread nD τ).loc main_arg10)) := by
  show StableHlo.after (List.flatten [hostOps0, hostOps0_1, hostOps0_2]) (fun b => m (c, b)) (Proc.devRef .tc main_v15) = _
  simp only [hostOps0, hostOps0_1, hostOps0_2, List.flatten_cons, List.flatten_nil, List.append_nil, List.cons_append, List.nil_append]
  after_results_simp
  rfl

/-- The host operation after the region: the relation output, from the arrays as launched. -/
theorem tail_v17 (c : Dev nD) :
    Pipeline.afterTail₀ cfgs (dats m) 0 (V0 m) [hostOps1] c main_v17
      = relOut (m ((c : Thread nD τ).loc main_arg1)) (m ((c : Thread nD τ).loc main_arg9)) := by
  unfold Pipeline.afterTail₀
  show StableHlo.after hostOps1 _ (Proc.devRef .tc main_v17) = _
  after_results
  rw [Pipeline.withArrays_of_ne _ c (V0 m c) _ main_arg1 (by exact (by decide : ∀ w, Pipeline.arrRef spec0 w ≠ main_arg1)),
    Pipeline.withArrays_of_ne _ c (V0 m c) _ main_v14 (by exact (by decide : ∀ w, Pipeline.arrRef spec0 w ≠ main_v14))]
  have h1 : V0 m c (Proc.devRef .tc main_arg1) = m ((c : Thread nD τ).loc main_arg1) := V_main_arg1 m c
  have h14 : V0 m c (Proc.devRef .tc main_v14) = transposed (m ((c : Thread nD τ).loc main_arg9)) := V_v14 m c
  rw [h1, h14]
  rfl

end Cert.KernelIdeal.HostValue

end
-- ==== Proof.KernelResult.lean ====
/-
  The kernel program's run with both results named. The first result is the array the region writes: `combine` of the
  node features, the aggregate, the transposed self and forward weights and the bias row, all as functions of the
  argument arrays. The second is the host product after the region. The argument arrays end as they began.
-/
import proofs.«419830_j9062380994847_2_alg».proof.Proof.HostValue

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first result on core `c`, from the argument arrays. -/
def out (c : Dev nD) : FVec Ideal S100000x64 .f32 :=
  NodeValue.combine (m ((c : Thread nD τ).loc main_arg0))
    (HostValue.aggregate (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (HostValue.transposed (m ((c : Thread nD τ).loc main_arg6))) (HostValue.transposed (m ((c : Thread nD τ).loc main_arg7)))
    (HostValue.biasRow (m ((c : Thread nD τ).loc main_arg10)))

/-- The second result on core `c`, from the argument arrays. -/
def rel (c : Dev nD) : FVec Ideal S200x64 .f32 :=
  HostValue.relOut (m ((c : Thread nD τ).loc main_arg1)) (m ((c : Thread nD τ).loc main_arg9))

/-- The region's result array is `out`. -/
theorem final_out (c : Dev nD) : (dats (F := Ideal) m 0 c).arrAt 5 cfg0.N = out m c := by
  rw [NodeValue.final5, V_main_arg0, HostValue.V_v11, HostValue.V_v12, HostValue.V_v13, HostValue.V_v15]
  rfl

/-- Every weakly fair execution terminates with the two results at `out` and `rel` and the arguments unchanged. -/
theorem run : θ_run defs (onTc (τ := τ) (main (F := Ideal))) ⟨m, fun _ => 0, ρ⟩ (fun r => ∀ c : Dev nD,
      r.2.mem ((c.tc : Thread nD τ).loc main_v16) = out m c
      ∧ r.2.mem ((c.tc : Thread nD τ).loc main_v17) = rel m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 5).trans (final_out m c),
      (((h c).2 main_v17 (Pipeline.mem_restRefs_of main_v17 (by decide) (by decide))).trans (HostValue.tail_v17 m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.Result

end
-- ==== Proof.RealSums.lean ====
/-
  Sums of real-valued extended reals. An extended real is REAL when it is the image of a real number; on such values
  the extended reals' addition and multiplication are the reals', so a finite sum of products may be regrouped freely:
  a factor moves across a sum, and two finite sums exchange. (On the extended reals at large this fails: the product
  does not distribute over a sum that holds both infinities.)
-/
import Idealize.ShloMosaic.PureOps.Ideal

noncomputable section

open scoped BigOperators

namespace Cert.RealSums

/-- The extended real `x` is a real number. -/
def IsReal (x : EReal) : Prop := ∃ r : ℝ, x = (r : EReal)

theorem isReal_coe (r : ℝ) : IsReal (r : EReal) := ⟨r, rfl⟩
theorem isReal_zero : IsReal (0 : EReal) := ⟨0, by simp⟩
theorem isReal_one : IsReal (1 : EReal) := ⟨1, by simp⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weighting every edge's row by `μ e`, summing the rows over a set `S` of edges and THEN contracting with a column
    `W` is contracting every edge's row with `W` first and summing the weighted results: for real-valued data both are
    the double sum of `μ e * D e k * W k` over `S` and the contracted axis. -/
theorem edge_sum_project {E K : Type} [Fintype K] (S : Finset E) (μ : E → EReal) (D : E → K → EReal) (W : K → EReal)
    (hμ : ∀ e, IsReal (μ e)) (hD : ∀ e k, IsReal (D e k)) (hW : ∀ k, IsReal (W k)) :
    ∑ k, (∑ e ∈ S, μ e * D e k) * W k = ∑ e ∈ S, (∑ k, D e k * W k) * μ e := by
  -- Real witnesses of the three families.
  choose m hm using hμ
  choose d hd using hD
  choose w hw using hW
  -- Every entry is a cast; products and finite sums of casts are casts, so each side is the cast of a real sum.
  simp only [hm, hd, hw, ← EReal.coe_mul, ← coe_sum]
  congr 1
  -- In the reals: distribute the outer factor into the inner sum, exchange the two sums, and compare termwise.
  simp only [Finset.sum_mul]
  rw [Finset.sum_comm]
  refine Finset.sum_congr rfl fun e _ => Finset.sum_congr rfl fun k _ => ?_
  ring

end Cert.RealSums

end
-- ==== Proof.Domain.lean ====
/-
  What the precondition says of the inputs, read out of its printed predicate: the node features, the relation
  embeddings and the forward weights hold real numbers (each `|x| < +∞`), every source-node index lies in
  `[0, 100000)` and every relation index in `[0, 200)`.

  The predicate is a conjunction of nine scalar bits, each the "all" of an elementwise mask (a reduction by `and`
  from the bit 1 over every axis). The conjunction being 1 makes every bit 1, and an "all" being 1 makes its mask 1 at
  every element. Two kinds of mask occur. For a float array the mask at an element `x` compares `max x (-x)` with the
  value of the pattern `0x7F800000`, which is `⊤`; among the extended reals only `⊥` and `⊤` have `max x (-x) = ⊤`, so
  `x` is the image of a real number. For an index array the mask at a word `w` is the `and` of the signed comparisons
  `0 ≤ w` and `w < n` against constant words; signed comparisons of words are the comparisons of their integer values,
  and a constant below 2³¹ has itself as its integer value. Five of the nine bits are used; the other four (the
  remaining weight matrices and the bias) are dropped.
-/
import proofs.«419830_j9062380994847_2_alg».proof.Pre_finite_inputs
import proofs.«419830_j9062380994847_2_alg».proof.Proof.RealSums
import Idealize.ShloMosaic.Lib.ValueIdx
import Idealize.ShloMosaic.Lib.ReduceAll
import Idealize.ShloMosaic.Lib.StableHlo.Predicate

noncomputable section

namespace Cert.Domain

open Idealize.ShloMosaic Cert.Pre_finite_inputs Cert.RealSums

variable [Cert.Pre_finite_inputs.Facts]

/-- The domain the precondition confines the inputs to, as far as the value claim uses it. -/
structure Holds (a0 : FVec Ideal S100000x64 .f32) (a1 : FVec Ideal S200x64 .f32) (a2 a4 : IVec S1000000 32)
    (a7 : FVec Ideal S64x64 .f32) : Prop where
  nodes_real : ∀ i, IsReal (a0 i)
  rels_real : ∀ i, IsReal (a1 i)
  wfwd_real : ∀ i, IsReal (a7 i)
  src_range : ∀ e, 0 ≤ (a2 e).toInt ∧ (a2 e).toInt < 100000
  etype_range : ∀ e, 0 ≤ (a4 e).toInt ∧ (a4 e).toInt < 200

/-! ## One element of a mask -/

/-- A scalar has one index. -/
instance subsingleton_scalar_idx : Subsingleton S_.Idx := ⟨fun a b => funext fun d => d.elim0⟩

/-- The pattern `0x7F800000` (sign 0, exponent all ones, significand 0) denotes `+∞`. -/
theorem top_bits : Ideal.ofBits .f32 0x7F800000#32 = (⊤ : EReal) := by
  simp [Ideal.ofBits, Ideal.ieee]

/-- An extended real whose absolute value `max x (-x)` is below `⊤` is a real number: at `⊥` and at `⊤` the
    absolute value is `⊤`. -/
theorem isReal_of_abs_lt_top (x : EReal) (h : max x (-x) < (⊤ : EReal)) : IsReal x := by
  induction x using EReal.rec with
  | bot => simp at h
  | coe r => exact ⟨r, rfl⟩
  | top => simp at h

/-- The float mask's bit at one element: `|x| < +∞` as an ordered comparison that came out 1 makes `x` real. -/
theorem isReal_of_bit (x : Ideal .f32)
    (h : FloatOps.cmpf (F := Ideal) .olt (FloatOps.hostAbsf x) (FloatOps.ofBits .f32 0x7F800000#32) = 1#1) : IsReal x := by
  -- On the extended reals the absolute value is `max x (-x)` and the comparison is the order's `<`, as a bit.
  have h' : Ideal.cmp .olt (max x (-x)) (Ideal.ofBits .f32 0x7F800000#32) = 1#1 := h
  rw [top_bits] at h'
  unfold Ideal.cmp at h'
  rw [StableHlo.Predicate.ofBool_eq_one_iff, decide_eq_true_eq] at h'
  exact isReal_of_abs_lt_top x h'

/-- The index mask's two bits at one word: `w ≥ 0` and `w < n`, signed, against constant words with `n < 2³¹`, say
    that the integer value of `w` lies in `[0, n)`. -/
theorem range_of_bits (w : BitVec 32) (n : Nat) (hn : n < 2 ^ 31)
    (h0 : IntOp.cmpi .sge w 0#32 = 1#1) (h1 : IntOp.cmpi .slt w (BitVec.ofNat 32 n) = 1#1) :
    0 ≤ w.toInt ∧ w.toInt < n := by
  -- Signed comparisons of words are defined as the comparisons of their integer values.
  unfold IntOp.cmpi at h0 h1
  rw [StableHlo.Predicate.ofBool_eq_one_iff] at h0 h1
  simp only [BitVec.slt, BitVec.sle, decide_eq_true_eq] at h0 h1
  rw [StableHlo.Predicate.toInt_ofNat_small n hn] at h1
  exact ⟨by simpa using h0, h1⟩

/-! ## One "all" bit, at any extent -/

/-- `all (|x| < +∞)` over a float array of any shape is 1: every entry is real. The mask at `i` is the comparison of
    `|x i|` with the broadcast scalar, which reads the scalar at every index. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ValueIdx.ix0 = 1#1) (i : s.Idx) : IsReal (x i) :=
  isReal_of_bit (x i) (Host.reduce_andi_all _ _ hr h0 _ e i)

/-- `all ((x ≥ 0) & (x < n))` over an index array of any shape is 1, `n < 2³¹`: every entry's integer value lies in
    `[0, n)`. -/
theorem range_of_all {s : Shape} {axes : List (Fin s.rank)} (n : Nat) (hn : n < 2 ^ 31) (x : IVec s 32)
    (hb : S_.BroadcastsInDim s (![] : Fin 0 → Fin s.rank)) (hr : s.ReducesTo axes S_) (h0 : 0 < S_.numel)
    (e : Host.reduce IntOp.andi
        (andi (cmpi .sge x (broadcastInDim s ![] hb (constantI S_ 32 0#32)))
          (cmpi .slt x (broadcastInDim s ![] hb (constantI S_ 32 (BitVec.ofNat 32 n)))))
        (constantI S_ 1 1#1) hr h0 ValueIdx.ix0 = 1#1) (i : s.Idx) : 0 ≤ (x i).toInt ∧ (x i).toInt < n := by
  obtain ⟨h1, h2⟩ := IntOp.andi_eq_one.1 (Host.reduce_andi_all _ _ hr h0 _ e i)
  exact range_of_bits (x i) n hn h1 h2

/-! ## The conjunction -/

/-- The printed predicate all ones gives the domain. -/
theorem holds_of_pre (a0 : FVec Ideal S100000x64 .f32) (a1 : FVec Ideal S200x64 .f32) (a2 a3 a4 a5 : IVec S1000000 32)
    (a6 a7 a8 a9 : FVec Ideal S64x64 .f32) (a10 : FVec Ideal S64 .f32)
    (h : fn (F := Ideal) a0 a1 a2 a3 a4 a5 a6 a7 a8 a9 a10 = fun _ => 1#1) : Holds a0 a1 a2 a4 a7 := by
  -- The predicate's one element, as the left-nested conjunction
  -- (((((((b0 ∧ b1) ∧ b6) ∧ b7) ∧ b8) ∧ b9) ∧ b10) ∧ b2) ∧ b4, `bk` the "all" bit of argument `k`.
  have e := congrFun h ValueIdx.ix0
  dsimp only [fn, fn_part1, fn_part2] at e
  -- Peel the conjuncts from the outside, keeping b4, b2, b7, b1, b0.
  obtain ⟨e, h4⟩ := IntOp.andi_eq_one.1 e
  obtain ⟨e, h2⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h7⟩ := IntOp.andi_eq_one.1 e
  obtain ⟨e, -⟩ := IntOp.andi_eq_one.1 e
  obtain ⟨h0, h1⟩ := IntOp.andi_eq_one.1 e
  exact
    { nodes_real := real_of_all a0 _ _ _ h0
      rels_real := real_of_all a1 _ _ _ h1
      wfwd_real := real_of_all a7 _ _ _ h7
      src_range := fun i => by simpa using range_of_all 100000 (by norm_num) a2 _ _ _ h2 i
      etype_range := fun i => by simpa using range_of_all 200 (by norm_num) a4 _ _ _ h4 i }

end Cert.Domain

end
-- ==== Proof.ScatterRows.lean ====
/-
  A row scatter read at an entry. Updates of shape [E, C] are added into the rows of an operand of shape [N, C]; the
  row that update row `e` goes to is named by the one-component scatter index `idx[e, 0]`, read as a signed integer
  and NOT clamped, and the column is kept. So update entry (e, k) lands on operand entry (n, k') exactly when the
  scatter index of `e` is `n` and `k = k'`; an update whose index names no row of the operand lands nowhere. At the
  ideal instance the accumulating scatter is therefore, entry by entry, the operand's entry plus the sum over the
  update rows landing on its row of their entries in its column.
-/
import Idealize.ShloMosaic.PureOps.Ideal
import Idealize.ShloMosaic.Lib.ValueIdx

noncomputable section

open scoped BigOperators

namespace Cert.ScatterRows

open Idealize.ShloMosaic Idealize.ShloMosaic.ValueIdx

/-- The dimension numbers of a row scatter: update window axis 1, inserted window axis 0, the one index component
    naming operand axis 0, the index vector along axis 1 of the scatter indices. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update row `e` lands on operand row `n`: its scatter index, read signed, is `n`. -/
def Lands {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (n : Fin N) : DecidablePred (fun e : Fin E => Lands idx e n) :=
  fun _ => Int.instDecidableEq _ _

/-- An update index lands on an operand index exactly when, on every operand axis, its window start plus its window
    coordinate is that index's coordinate: the range test of the landing rule is then the coordinate's own range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hall
      intro a
      have ha := congrFun (Option.some.inj h) a
      have hv : (d.start j idx a + (d.window j a : Int)).toNat = (i a).val := congrArg Fin.val ha
      have := hall a
      omega
    · cases h
  · intro h
    rw [dif_pos (fun a => by have := h a; have := (i a).isLt; constructor <;> omega)]
    congr 1
    funext a
    refine Fin.ext ?_
    show (d.start j idx a + (d.window j a : Int)).toNat = (i a).val
    have := h a
    omega

section Axes

variable {N E C w : Nat} (wf : ScatterDims.WF ⟨2, ![N, C]⟩ ⟨2, ![E, 1]⟩ ⟨2, ![E, C]⟩ [1] [0] [0] 1)

/-- On the row axis the window of update entry (e, k) starts at the scatter index of row `e`, read signed: the axis
    is the one the index component names, and the component is read at (e, 0). -/
theorem start_zero (idx : IVec ⟨2, ![E, 1]⟩ w) (e : Fin E) (k : Fin C) :
    (rowDims N E C wf).start (ix2 e k) idx (0 : Fin 2) = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e k) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no index component names, every window starts at 0. -/
theorem start_one (idx : IVec ⟨2, ![E, 1]⟩ w) (j : (⟨2, ![E, C]⟩ : Shape).Idx) :
    (rowDims N E C wf).start j idx (1 : Fin 2) = 0 := by
  unfold ScatterDims.start
  rw [dif_neg (show ¬ (1 : Fin 2) ∈ (rowDims N E C wf).scatterDimsToOperandDims from
    (by decide : ¬ (1 : Fin 2) ∈ ([0] : List (Fin 2))))]

/-- The row axis is an inserted window axis: the window coordinate on it is 0. -/
theorem window_zero (j : (⟨2, ![E, C]⟩ : Shape).Idx) :
    (rowDims N E C wf).window j (0 : Fin 2) = 0 := by
  unfold ScatterDims.window
  rw [dif_neg (show ¬ (0 : Fin 2) ∈ (rowDims N E C wf).sKept from
    (by decide : ¬ (0 : Fin 2) ∈ (List.finRange 2).filter (fun a => decide (a ∉ ([0] : List (Fin 2))))))]

/-- The column axis is the one kept operand axis, and the one update window axis goes to it: the window coordinate
    of update entry (e, k) on it is `k`. -/
theorem window_one (e : Fin E) (k : Fin C) :
    (rowDims N E C wf).window (ix2 e k) (1 : Fin 2) = k.val := by
  unfold ScatterDims.window
  rw [dif_pos (show (1 : Fin 2) ∈ (rowDims N E C wf).sKept from
    (by decide : (1 : Fin 2) ∈ (List.finRange 2).filter (fun a => decide (a ∉ ([0] : List (Fin 2))))))]
  rfl

/-- WHERE AN UPDATE ENTRY LANDS: update entry (e, k) lands on operand entry (n, k') exactly when row `e` lands on row
    `n` and the columns agree. On the row axis start plus window is the scatter index plus 0, on the column axis it
    is 0 plus `k`. -/
theorem lands_iff (idx : IVec ⟨2, ![E, 1]⟩ w) (e : Fin E) (k k' : Fin C) (n : Fin N) :
    (rowDims N E C wf).resultIdx? (ix2 e k) idx = some (ix2 n k') ↔ Lands idx e n ∧ k = k' := by
  rw [resultIdx?_eq_some_iff]
  constructor
  · intro h
    have h0 : (rowDims N E C wf).start (ix2 e k) idx (0 : Fin 2) + ((rowDims N E C wf).window (ix2 e k) (0 : Fin 2) : Int)
        = (n.val : Int) := h (0 : Fin 2)
    have h1 : (rowDims N E C wf).start (ix2 e k) idx (1 : Fin 2) + ((rowDims N E C wf).window (ix2 e k) (1 : Fin 2) : Int)
        = (k'.val : Int) := h (1 : Fin 2)
    rw [start_zero, window_zero] at h0
    rw [start_one, window_one] at h1
    refine ⟨?_, Fin.ext ?_⟩
    · show (idx (ix2 e (0 : Fin 1))).toInt = (n.val : Int)
      omega
    · omega
  · rintro ⟨hl, rfl⟩ a
    match a with
    | ⟨0, _⟩ =>
      show (rowDims N E C wf).start (ix2 e k) idx (0 : Fin 2) + ((rowDims N E C wf).window (ix2 e k) (0 : Fin 2) : Int)
        = (n.val : Int)
      rw [start_zero, window_zero]
      have : (idx (ix2 e (0 : Fin 1))).toInt = (n.val : Int) := hl
      omega
    | ⟨1, _⟩ =>
      show (rowDims N E C wf).start (ix2 e k) idx (1 : Fin 2) + ((rowDims N E C wf).window (ix2 e k) (1 : Fin 2) : Int)
        = (k.val : Int)
      rw [start_one, window_one]
      omega

end Axes

/-- THE ROW SCATTER AT AN ENTRY: the operand's entry plus the entries, in the same column, of the update rows that
    land on its row. -/
theorem hostScatterAdd_row {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowDims N E C wf) x idx upd (ix2 n k)
      = x (ix2 n k) + ∑ e ∈ Finset.univ.filter (fun e : Fin E => Lands idx e n), upd (ix2 e k) := by
  -- The sum over the update entries landing on (n, k), written as a sum over all entries of "the entry if it lands,
  -- else 0", is a double sum over rows and columns; in row `e` only column `k` can land, and it does exactly when
  -- the row lands on `n`.
  simp only [Ideal.hostScatterAdd]
  congr 1
  rw [Finset.sum_filter, Finset.sum_filter, sum_idx2]
  refine Finset.sum_congr rfl fun e _ => ?_
  by_cases hl : Lands idx e n
  · rw [if_pos hl, Finset.sum_eq_single k]
    · rw [if_pos ((lands_iff wf idx e k k n).mpr ⟨hl, rfl⟩)]
    · intro k' _ hne
      rw [if_neg (fun h => hne ((lands_iff wf idx e k' k n).mp h).2)]
    · intro h
      exact absurd (Finset.mem_univ k) h
  · rw [if_neg hl]
    refine Finset.sum_eq_zero fun k' _ => ?_
    rw [if_neg (fun h => hl ((lands_iff wf idx e k' k n).mp h).1)]

end Cert.ScatterRows

end
-- ==== Proof.EdgeForm.lean ====
/-
  One entry of the layer's output, in the arrangement both programs are read to. Entry (n, o) is the self term
  `Σ_k nf[n,k] · WsT[k,o]`, plus the neighbour term — over the edges `e` whose destination is node `n`, each edge's
  message row `H[e,·] − R[e,·]` contracted with column `o` of the forward weights and weighted by the edge's mask
  `μ e` —, plus the bias entry `b[0,o]`.
-/
import Idealize.ShloMosaic.PureOps.Ideal
import Idealize.ShloMosaic.Lib.ValueIdx
import proofs.«419830_j9062380994847_2_alg».proof.Proof.ScatterRows

noncomputable section

open scoped BigOperators

namespace Cert.EdgeForm

open Idealize.ShloMosaic Idealize.ShloMosaic.ValueIdx Cert.ScatterRows

/-- Entry (n, o) of the output: self term, neighbour term (each edge contracted first, then weighted and summed over
    the edges landing on row `n`), bias. -/
def entry (nf : (⟨2, ![100000, 64]⟩ : Shape).Idx → EReal) (WsT WfT : (⟨2, ![64, 64]⟩ : Shape).Idx → EReal)
    (b : (⟨2, ![1, 64]⟩ : Shape).Idx → EReal) (dst : IVec ⟨2, ![1000000, 1]⟩ 32) (μ : Fin 1000000 → EReal)
    (H R : (⟨2, ![1000000, 64]⟩ : Shape).Idx → EReal) (n : Fin 100000) (o : Fin 64) : EReal :=
  ((∑ k : Fin 64, nf (ix2 n k) * WsT (ix2 k o))
    + ∑ e ∈ Finset.univ.filter (fun e : Fin 1000000 => Lands dst e n),
        (∑ k : Fin 64, (H (ix2 e k) - R (ix2 e k)) * WfT (ix2 k o)) * μ e)
    + b (ix2 (0 : Fin 1) o)

/-- The mask of edge `e`: 1 when its direction word is 0, else 0, as a real number. -/
def fwd (dir : IVec ⟨1, ![1000000]⟩ 32) (e : Fin 1000000) : EReal :=
  (((IntOp.cmpi .eq (dir (ix1 e)) 0#32).toNat : ℝ) : EReal)

end Cert.EdgeForm

end
-- ==== Proof.KernelEntry.lean ====
/-
  The kernel program's first result read at an entry. The result array is `combine` of the node features, the
  aggregate, the two transposed weight matrices and the bias row. With every lookup index in range the lookups are
  plain gathers; the aggregate's entry (n, k) is then, by the row-scatter law, the sum over the edges landing on row n
  of the masked message entries `μ e · (H[e,k] − R[e,k])`. Contracting that sum with column o of the forward weights and
  regrouping — legitimate because every number involved is real — gives the sum over those edges of each edge's
  contracted message times its mask: the output entry in the common arrangement.
-/
import proofs.«419830_j9062380994847_2_alg».proof.Proof.HostValue
import proofs.«419830_j9062380994847_2_alg».proof.Proof.Domain
import proofs.«419830_j9062380994847_2_alg».proof.Proof.RealSums
import proofs.«419830_j9062380994847_2_alg».proof.Proof.ScatterRows
import proofs.«419830_j9062380994847_2_alg».proof.Proof.EdgeForm
import Idealize.ShloMosaic.Lib.Pipeline.Value
import Idealize.ShloMosaic.PureOps.Ideal.Laws

noncomputable section

open scoped BigOperators

namespace Cert.KernelIdeal.Entry

open Cert.KernelIdeal Idealize.ShloMosaic Idealize.ShloMosaic.ValueIdx Cert.EdgeForm

open Cert.RealSums Cert.ScatterRows

/-- The forward-edge mask at entry (e, k) is the mask of edge `e`: the two broadcasts read the per-edge value at row
    `e`, the comparison word is the direction word against the zero word, and the conversion of a one-bit word is
    its value as a real number. -/
theorem fwdMask_apply (x5 : IVec S1000000 32) (e : Fin 1000000) (k : Fin 64) :
    HostValue.fwdMask (F := Ideal) x5 (ix2 e k) = fwd x5 e := by
  unfold HostValue.fwdMask
  rw [broadcastInDim_apply _ Facts₀.bcast_S1000000x1_S1000000x64_0_1 _ (ix2 e k) (ix2 e (0 : Fin 1)) (fun a => match a with
    | ⟨0, _⟩ => by show e.val = if (1000000 : Nat) = 1 then 0 else e.val; rw [if_neg (by decide)]
    | ⟨1, _⟩ => by show 0 = if (1 : Nat) = 1 then 0 else k.val; rw [if_pos rfl])]
  rw [broadcastInDim_apply _ Facts₀.bcast_S1000000_S1000000x1_0 _ (ix2 e (0 : Fin 1)) (ix1 e) (fun a => match a with
    | ⟨0, _⟩ => by show e.val = if (1000000 : Nat) = 1 then 0 else e.val; rw [if_neg (by decide)])]
  show (((IntOp.cmpi .eq (x5 (ix1 e))
      (broadcastInDim S1000000 ![] Facts₀.bcast_S_S1000000 (constantI S_ 32 0#32) (ix1 e))).toNat : ℝ) : EReal) = _
  rw [broadcastInDim_apply _ Facts₀.bcast_S_S1000000 _ (ix1 e) ix0 (fun a => a.elim0)]
  rfl

/-- A transposed weight matrix at (a, b) is the matrix at (b, a). -/
theorem transposed_apply (x : FVec Ideal S64x64 .f32) (a b : Fin 64) :
    HostValue.transposed x (ix2 a b) = x (ix2 b a) := by
  unfold HostValue.transposed
  exact transpose_apply [1, 0] x Facts₀.transposes_S64x64_S64x64_1_0 (ix2 a b) (ix2 b a) (fun c => match c with
    | ⟨0, _⟩ => rfl
    | ⟨1, _⟩ => rfl)

/-- At the extended reals the accumulating scatter is the exact sum. -/
theorem scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-- The kernel program's scatter has the row-scatter dimension numbers. -/
theorem scatter_dims : scatter_S100000x64_S1000000x1_S1000000x64_1_0_0_1
    = rowDims 100000 1000000 64 Facts₀.scatter_S100000x64_S1000000x1_S1000000x64_1_0_0_1_wf := rfl

theorem aggregateOf_entry (H R : FVec Ideal S1000000x64 .f32) (x3 x5 : IVec S1000000 32) (n : Fin 100000) (k : Fin 64) :
    HostValue.aggregateOf H R x3 x5 (ix2 n k)
      = ∑ e ∈ Finset.univ.filter (fun e : Fin 1000000 => Lands (HostValue.dstColumn x3) e n),
          fwd x5 e * (H (ix2 e k) - R (ix2 e k)) := by
  rw [HostValue.aggregateOf, scatterAdd_ideal, scatter_dims, hostScatterAdd_row]
  rw [broadcastInDim_apply _ Facts₀.bcast_S_S100000x64 _ (ix2 n k) ix0 (fun a => a.elim0)]
  rw [constant_apply, Ideal.ofBits_zero_f32, zero_add]
  exact Finset.sum_congr rfl fun e _ => by rw [mulf_apply, subf_apply, fwdMask_apply]

/-- `combine` at entry (n, o), the coordinates computed. -/
theorem combine_entry (A B : FVec Ideal S100000x64 .f32) (C D : FVec Ideal S64x64 .f32) (E : FVec Ideal S1x64 .f32)
    (n : Fin 100000) (o : Fin 64) :
    NodeValue.combine A B C D E (ix2 n o)
      = ((Ideal.ofBits .f32 0x00000000#32 + ∑ k : Fin 64, A (ix2 n k) * C (ix2 k o))
        + (Ideal.ofBits .f32 0x00000000#32 + ∑ k : Fin 64, B (ix2 n k) * D (ix2 k o)))
        + E (ix2 (0 : Fin 1) o) := rfl

/-- The mask of an edge is a real number (0 or 1). -/
theorem fwd_real (x5 : IVec S1000000 32) (e : Fin 1000000) : IsReal (fwd x5 e) := isReal_coe _

/-- THE REGROUPING, over any real looked-up rows and real forward weights: the aggregate's row `n` contracted with
    column `o` of the forward weights is the sum, over the edges landing on row `n`, of each edge's message row
    contracted with that column, times the edge's mask. -/
theorem neighbour_term (H R : FVec Ideal S1000000x64 .f32) (x3 x5 : IVec S1000000 32) (W : FVec Ideal S64x64 .f32)
    (hH : ∀ j, IsReal (H j)) (hR : ∀ j, IsReal (R j)) (hW : ∀ j, IsReal (W j)) (n : Fin 100000) (o : Fin 64) :
    ∑ k : Fin 64, HostValue.aggregateOf H R x3 x5 (ix2 n k) * W (ix2 k o)
      = ∑ e ∈ Finset.univ.filter (fun e : Fin 1000000 => Lands (HostValue.dstColumn x3) e n),
          (∑ k : Fin 64, (H (ix2 e k) - R (ix2 e k)) * W (ix2 k o)) * fwd x5 e := by
  have step1 : ∑ k : Fin 64, HostValue.aggregateOf H R x3 x5 (ix2 n k) * W (ix2 k o)
      = ∑ k : Fin 64, (∑ e ∈ Finset.univ.filter (fun e : Fin 1000000 => Lands (HostValue.dstColumn x3) e n),
          fwd x5 e * (H (ix2 e k) - R (ix2 e k))) * W (ix2 k o) :=
    Finset.sum_congr rfl fun k _ => by rw [aggregateOf_entry]
  exact step1.trans
    (edge_sum_project (Finset.univ.filter (fun e : Fin 1000000 => Lands (HostValue.dstColumn x3) e n))
      (fun e => fwd x5 e) (fun e k => H (ix2 e k) - R (ix2 e k)) (fun k => W (ix2 k o))
      (fun e => fwd_real x5 e) (fun e k => (hH (ix2 e k)).sub (hR (ix2 e k))) (fun k => hW (ix2 k o)))

/-- The output entry over any real looked-up rows and real forward weights. -/
theorem out_entry_of (x0 : FVec Ideal S100000x64 .f32) (H R : FVec Ideal S1000000x64 .f32) (x3 x5 : IVec S1000000 32)
    (Ws Wf : FVec Ideal S64x64 .f32) (b : FVec Ideal S1x64 .f32)
    (hH : ∀ j, IsReal (H j)) (hR : ∀ j, IsReal (R j)) (hW : ∀ j, IsReal (Wf j)) (n : Fin 100000) (o : Fin 64) :
    NodeValue.combine x0 (HostValue.aggregateOf H R x3 x5) Ws Wf b (ix2 n o)
      = entry x0 Ws Wf b (HostValue.dstColumn x3) (fwd x5) H R n o := by
  rw [combine_entry, entry, Ideal.ofBits_zero_f32, zero_add, zero_add, neighbour_term H R x3 x5 Wf hH hR hW n o]

/-- The transposed forward weights are real when the forward weights are. -/
theorem transposed_real (x : FVec Ideal S64x64 .f32) (hx : ∀ i, IsReal (x i)) (j : S64x64.Idx) :
    IsReal (HostValue.transposed x j) := by
  obtain ⟨a, b, rfl⟩ : ∃ (a b : Fin 64), j = ix2 a b := ⟨j 0, j 1, eq_ix2 j⟩
  rw [transposed_apply]
  exact hx _

/-- Entry (n, o) of the kernel's output is the common arrangement's entry, over the kernel's own transposed weights,
    bias row, destination column and mask, and the plain gathers at the wrapped indices. -/
theorem out_entry (x0 : FVec Ideal S100000x64 .f32) (x1 : FVec Ideal S200x64 .f32) (x2 x3 x4 x5 : IVec S1000000 32)
    (x6 x7 : FVec Ideal S64x64 .f32) (x10 : FVec Ideal S64 .f32) (hd : Cert.Domain.Holds x0 x1 x2 x4 x7)
    (n : Fin 100000) (o : Fin 64) :
    NodeValue.combine x0 (HostValue.aggregate x0 x1 x2 x3 x4 x5) (HostValue.transposed x6) (HostValue.transposed x7)
        (HostValue.biasRow x10) (ix2 n o)
      = entry x0 (HostValue.transposed x6) (HostValue.transposed x7) (HostValue.biasRow x10) (HostValue.dstColumn x3) (fwd x5)
          (Host.gather gather_S100000x64_S1000000x1_S1000000x64_1_0_n_n_0_1_164 x0 (Take.wrap 100000#32 x2))
          (Host.gather gather_S200x64_S1000000x1_S1000000x64_1_0_n_n_0_1_164 x1 (Take.wrap 200#32 x4)) n o := by
  rw [HostValue.aggregate_eq, Take.nodes_eq x0 x2 hd.src_range, Take.rels_eq x1 x4 hd.etype_range]
  exact out_entry_of x0 _ _ x3 x5 _ _ _ (fun j => hd.nodes_real _) (fun j => hd.rels_real _)
    (transposed_real x7 hd.wfwd_real) n o

end Cert.KernelIdeal.Entry

end
-- ==== Proof.RefEntry.lean ====
/-
  The reference program's first result read at an entry. Its stages, one operation at a time, are the generated
  read-at-an-index lemmas; the two row lookups stay unopened (which row a lookup reads is not needed: only that both
  programs look up the same rows), and the accumulating scatter is read by the row-scatter law: entry (n, o) is the
  sum, over the edges landing on row n, of the edge's contracted and masked message at column o. Adding the self term
  and the bias entry gives the output entry in the common arrangement.
-/
import proofs.«419830_j9062380994847_2_alg».proof.Proof.Gen.ReferenceIdeal.Read
import proofs.«419830_j9062380994847_2_alg».proof.Proof.ScatterRows
import proofs.«419830_j9062380994847_2_alg».proof.Proof.EdgeForm
import Idealize.ShloMosaic.PureOps.Ideal.Laws

noncomputable section

open scoped BigOperators

namespace Cert.ReferenceIdeal.Entry

open Cert.ReferenceIdeal Cert.ReferenceIdeal.Read Idealize.ShloMosaic Idealize.ShloMosaic.ValueIdx Cert.EdgeForm

/-- The self term at entry (n, o): row n of the node features contracted with column o of the transposed self
    weights. The contraction reads its left operand at (n, k) and its right operand at (k, o). -/
theorem self_entry (x0 : (⟨S100000x64, .f32⟩ : BufTy).Contents (Elt Ideal)) (x6 : (⟨S64x64, .f32⟩ : BufTy).Contents (Elt Ideal))
    (n : Fin 100000) (o : Fin 64) :
    val_main_v27 (F := Ideal) x0 x6 (ix2 n o) = ∑ k : Fin 64, x0 (ix2 n k) * val_main_v26 (F := Ideal) x6 (ix2 k o) := by
  rw [val_main_v27_apply]
  refine Finset.sum_congr rfl fun k _ => ?_
  have hl : lidx_main_v27 (ix2 n o) k = ix2 n k := by
    funext a; match a with | ⟨0, _⟩ => rfl | ⟨1, _⟩ => rfl
  have hr : ridx_main_v27 (ix2 n o) k = ix2 k o := by
    funext a; match a with | ⟨0, _⟩ => rfl | ⟨1, _⟩ => rfl
  rw [hl, hr]

/-- The bias at entry (n, o): the bias row broadcast along the nodes, so entry (0, o) of the row. -/
theorem bias_entry (x10 : (⟨S64, .f32⟩ : BufTy).Contents (Elt Ideal)) (n : Fin 100000) (o : Fin 64) :
    val_main_v30 (F := Ideal) x10 (ix2 n o) = val_main_v29 (F := Ideal) x10 (ix2 (0 : Fin 1) o) := by
  rw [val_main_v30_apply]
  have hi : idx_main_v30 (ix2 n o) = ix2 (0 : Fin 1) o := by
    funext a; match a with | ⟨0, _⟩ => rfl | ⟨1, _⟩ => rfl
  rw [hi]

/-- The mask at entry (e, o): the comparison of edge e's direction word with 0, converted to a real number and
    broadcast along the columns; it does not depend on the column. -/
theorem mask_entry (x5 : (⟨S1000000, .i32⟩ : BufTy).Contents (Elt Ideal)) (e : Fin 1000000) (o : Fin 64) :
    val_main_v21 (F := Ideal) x5 (ix2 e o) = fwd x5 e := by
  rw [val_main_v21_apply, val_main_v20_apply, val_main_v19_apply, val_main_v18_apply, val_main_v17_apply,
    val_main_c_3_apply]
  have hi : idx_main_v19 (idx_main_v21 (ix2 e o)) = ix1 e := by
    funext a; match a with | ⟨0, _⟩ => rfl
  rw [hi]
  rfl

/-- The contracted message at entry (e, o): edge e's message row, the difference of its two looked-up rows,
    contracted with column o of the transposed forward weights. -/
theorem contract_entry (x0 : (⟨S100000x64, .f32⟩ : BufTy).Contents (Elt Ideal)) (x1 : (⟨S200x64, .f32⟩ : BufTy).Contents (Elt Ideal))
    (x2 x4 : (⟨S1000000, .i32⟩ : BufTy).Contents (Elt Ideal)) (x7 : (⟨S64x64, .f32⟩ : BufTy).Contents (Elt Ideal))
    (e : Fin 1000000) (o : Fin 64) :
    val_main_v16 (F := Ideal) x0 x1 x2 x4 x7 (ix2 e o)
      = ∑ k : Fin 64, (val_main_v6 (F := Ideal) x0 x2 (ix2 e k) - val_main_v13 (F := Ideal) x1 x4 (ix2 e k))
          * val_main_v15 (F := Ideal) x7 (ix2 k o) := by
  rw [val_main_v16_apply]
  refine Finset.sum_congr rfl fun k _ => ?_
  have hl : lidx_main_v16 (ix2 e o) k = ix2 e k := by
    funext a; match a with | ⟨0, _⟩ => rfl | ⟨1, _⟩ => rfl
  have hr : ridx_main_v16 (ix2 e o) k = ix2 k o := by
    funext a; match a with | ⟨0, _⟩ => rfl | ⟨1, _⟩ => rfl
  rw [hl, hr, val_main_v14_apply, Ideal.subf_def]

/-- The update at entry (e, o): the contracted message times the edge's mask. -/
theorem update_entry (x0 : (⟨S100000x64, .f32⟩ : BufTy).Contents (Elt Ideal)) (x1 : (⟨S200x64, .f32⟩ : BufTy).Contents (Elt Ideal))
    (x2 x4 x5 : (⟨S1000000, .i32⟩ : BufTy).Contents (Elt Ideal)) (x7 : (⟨S64x64, .f32⟩ : BufTy).Contents (Elt Ideal))
    (e : Fin 1000000) (o : Fin 64) :
    val_main_v22 (F := Ideal) x0 x1 x2 x4 x5 x7 (ix2 e o)
      = (∑ k : Fin 64, (val_main_v6 (F := Ideal) x0 x2 (ix2 e k) - val_main_v13 (F := Ideal) x1 x4 (ix2 e k))
            * val_main_v15 (F := Ideal) x7 (ix2 k o)) * fwd x5 e := by
  rw [val_main_v22_apply, Ideal.mulf_def, mask_entry, contract_entry]

/-- The scatter stage at the ideal values is the accumulating row scatter of the update array into the zero array,
    its rows named by the destination column: the program's scatter record has the row scatter's four fields. -/
theorem scatter_stage (x0 : (⟨S100000x64, .f32⟩ : BufTy).Contents (Elt Ideal)) (x1 : (⟨S200x64, .f32⟩ : BufTy).Contents (Elt Ideal))
    (x2 x3 x4 x5 : (⟨S1000000, .i32⟩ : BufTy).Contents (Elt Ideal)) (x7 : (⟨S64x64, .f32⟩ : BufTy).Contents (Elt Ideal)) :
    val_main_v25 (F := Ideal) x0 x1 x2 x3 x4 x5 x7
      = Ideal.hostScatterAdd
          (Cert.ScatterRows.rowDims 100000 1000000 64 Facts₀.scatter_S100000x64_S1000000x1_S1000000x64_1_0_0_1_wf)
          (val_main_v23 (F := Ideal)) (val_main_v24 (F := Ideal) x3) (val_main_v22 (F := Ideal) x0 x1 x2 x4 x5 x7) := rfl

/-- The neighbour term at entry (n, o): the scatter's operand is the zero array, so the entry is the sum, over the
    edges landing on row n, of their update entries in column o. -/
theorem neighbour_entry (x0 : (⟨S100000x64, .f32⟩ : BufTy).Contents (Elt Ideal)) (x1 : (⟨S200x64, .f32⟩ : BufTy).Contents (Elt Ideal))
    (x2 x3 x4 x5 : (⟨S1000000, .i32⟩ : BufTy).Contents (Elt Ideal)) (x7 : (⟨S64x64, .f32⟩ : BufTy).Contents (Elt Ideal))
    (n : Fin 100000) (o : Fin 64) :
    val_main_v25 (F := Ideal) x0 x1 x2 x3 x4 x5 x7 (ix2 n o)
      = ∑ e ∈ Finset.univ.filter (fun e : Fin 1000000 => Cert.ScatterRows.Lands (val_main_v24 (F := Ideal) x3) e n),
          (∑ k : Fin 64, (val_main_v6 (F := Ideal) x0 x2 (ix2 e k) - val_main_v13 (F := Ideal) x1 x4 (ix2 e k))
            * val_main_v15 (F := Ideal) x7 (ix2 k o)) * fwd x5 e := by
  rw [scatter_stage, Cert.ScatterRows.hostScatterAdd_row, val_main_v23_apply, val_main_cst_apply, Ideal.ofBits_def,
    Ideal.ofBits_zero_f32, zero_add]
  exact Finset.sum_congr rfl fun e _ => update_entry x0 x1 x2 x4 x5 x7 e o

/-- Entry (n, o) of the reference's output is the common arrangement's entry, over the reference's own transposed
    weights, bias row, destination column, mask and looked-up rows. -/
theorem out_entry (x0 : (⟨S100000x64, .f32⟩ : BufTy).Contents (Elt Ideal)) (x1 : (⟨S200x64, .f32⟩ : BufTy).Contents (Elt Ideal))
    (x2 x3 x4 x5 : (⟨S1000000, .i32⟩ : BufTy).Contents (Elt Ideal)) (x6 x7 : (⟨S64x64, .f32⟩ : BufTy).Contents (Elt Ideal))
    (x10 : (⟨S64, .f32⟩ : BufTy).Contents (Elt Ideal)) (n : Fin 100000) (o : Fin 64) :
    val_main_v31 (F := Ideal) x0 x1 x2 x3 x4 x5 x6 x7 x10 (ix2 n o)
      = entry x0 (val_main_v26 (F := Ideal) x6) (val_main_v15 (F := Ideal) x7) (val_main_v29 (F := Ideal) x10)
          (val_main_v24 (F := Ideal) x3) (fwd x5) (val_main_v6 (F := Ideal) x0 x2) (val_main_v13 (F := Ideal) x1 x4) n o := by
  unfold entry
  rw [val_main_v31_apply, val_main_v28_apply, Ideal.addf_def, Ideal.addf_def, self_entry, neighbour_entry, bias_entry]

end Cert.ReferenceIdeal.Entry

end
-- ==== Proof.Bridge.lean ====
/-
  The two programs' results are equal. For the first result: both are read, entry by entry, to the common arrangement
  (self term, plus the sum over the edges landing on the row of each edge's contracted and masked message, plus the
  bias entry), over terms that are the same in both programs — the same transposed weights, bias row, destination
  column, forward-edge mask, and the same two gathers at the same wrapped indices. For the second result the two
  programs apply the same product to the same arguments.
-/
import proofs.«419830_j9062380994847_2_alg».proof.Proof.KernelEntry
import proofs.«419830_j9062380994847_2_alg».proof.Proof.RefEntry

noncomputable section

namespace Cert.Bridge

open Idealize.ShloMosaic Idealize.ShloMosaic.ValueIdx

/-- The kernel's first result is the reference's, on the precondition's domain. -/
theorem out_eq (x0 : FVec Ideal Cert.KernelIdeal.S100000x64 .f32) (x1 : FVec Ideal Cert.KernelIdeal.S200x64 .f32)
    (x2 x3 x4 x5 : IVec Cert.KernelIdeal.S1000000 32) (x6 x7 : FVec Ideal Cert.KernelIdeal.S64x64 .f32)
    (x10 : FVec Ideal Cert.KernelIdeal.S64 .f32) (hd : Cert.Domain.Holds x0 x1 x2 x4 x7) :
    Cert.KernelIdeal.NodeValue.combine x0 (Cert.KernelIdeal.HostValue.aggregate x0 x1 x2 x3 x4 x5)
        (Cert.KernelIdeal.HostValue.transposed x6) (Cert.KernelIdeal.HostValue.transposed x7) (Cert.KernelIdeal.HostValue.biasRow x10)
      = Cert.ReferenceIdeal.Read.val_main_v31 (F := Ideal) x0 x1 x2 x3 x4 x5 x6 x7 x10 := by
  funext i
  obtain ⟨n, o, rfl⟩ : ∃ (n : Fin 100000) (o : Fin 64), i = ix2 n o := ⟨i 0, i 1, eq_ix2 i⟩
  rw [Cert.KernelIdeal.Entry.out_entry x0 x1 x2 x3 x4 x5 x6 x7 x10 hd n o]
  refine Eq.trans ?_ (Cert.ReferenceIdeal.Entry.out_entry x0 x1 x2 x3 x4 x5 x6 x7 x10 n o).symm
  -- the arguments of the common arrangement are the same terms in both programs
  have hWs : Cert.KernelIdeal.HostValue.transposed x6 = Cert.ReferenceIdeal.Read.val_main_v26 (F := Ideal) x6 := rfl
  have hWf : Cert.KernelIdeal.HostValue.transposed x7 = Cert.ReferenceIdeal.Read.val_main_v15 (F := Ideal) x7 := rfl
  have hb : Cert.KernelIdeal.HostValue.biasRow x10 = Cert.ReferenceIdeal.Read.val_main_v29 (F := Ideal) x10 := rfl
  have hdst : Cert.KernelIdeal.HostValue.dstColumn x3 = Cert.ReferenceIdeal.Read.val_main_v24 (F := Ideal) x3 := rfl
  have hH : Host.gather Cert.KernelIdeal.gather_S100000x64_S1000000x1_S1000000x64_1_0_n_n_0_1_164 x0 (Cert.KernelIdeal.Take.wrap 100000#32 x2)
      = Cert.ReferenceIdeal.Read.val_main_v6 (F := Ideal) x0 x2 := rfl
  have hR : Host.gather Cert.KernelIdeal.gather_S200x64_S1000000x1_S1000000x64_1_0_n_n_0_1_164 x1 (Cert.KernelIdeal.Take.wrap 200#32 x4)
      = Cert.ReferenceIdeal.Read.val_main_v13 (F := Ideal) x1 x4 := rfl
  rw [hWs, hWf, hb, hdst, hH, hR]

/-- The kernel's second result is the reference's. -/
theorem rel_eq (x1 : FVec Ideal Cert.KernelIdeal.S200x64 .f32) (x9 : FVec Ideal Cert.KernelIdeal.S64x64 .f32) :
    Cert.KernelIdeal.HostValue.relOut x1 x9 = Cert.ReferenceIdeal.Read.val_main_v33 (F := Ideal) x1 x9 := rfl

end Cert.Bridge

end
-- ==== Proof.lean ====
/-
  The certificate of the graph-convolution layer: the Pallas program against its jnp reference.

  Both programs compute, for every node n and output feature o,
      out[n,o] = Σ_k nf[n,k]·W_self[o,k] + (neighbour term) + bias[o],        rel_out = rel · W_relᵀ,
  where every edge e carries the message nf[src e] − rel[etype e], masked by "direction e = 0", into row dst e. The
  reference multiplies each edge's message by W_forwardᵀ and then sums the results into their destination rows; the
  kernel sums the raw masked messages into a 100000 × 64 aggregate first and multiplies the aggregate by W_forwardᵀ
  inside its one region, ten blocks of 10000 rows. Over the extended reals the two agree where a finite sum of real
  numbers may be regrouped, that is, where the float inputs are finite; and the kernel's row lookup fills a row whose
  index is out of range where the reference's lookup clamps the index, so the claim is stated on the domain where the
  source-node and relation indices name rows of their tables. On that domain the lookups are the same gathers, the
  scatter-add is, entry by entry, the sum over the edges landing on the row, and the two arrangements are one double
  sum. The second result is the same product in both programs.

  The frames of the two kernel programs are their generated frame certificates; the reference's frame is its generated
  run with the results dropped. The idealization applied no rewrite, so there is nothing to preserve.
-/
import proofs.«419830_j9062380994847_2_alg».proof.Defs
import proofs.«419830_j9062380994847_2_alg».proof.Proof.Gen.Kernel
import proofs.«419830_j9062380994847_2_alg».proof.Proof.Gen.Kernel.Skeleton
import proofs.«419830_j9062380994847_2_alg».proof.Proof.Gen.Kernel.Launch
import proofs.«419830_j9062380994847_2_alg».proof.Proof.Gen.Kernel.Points
import proofs.«419830_j9062380994847_2_alg».proof.Proof.Gen.Kernel.Frame
import proofs.«419830_j9062380994847_2_alg».proof.Proof.Gen.KernelIdeal
import proofs.«419830_j9062380994847_2_alg».proof.Proof.Gen.KernelIdeal.Skeleton
import proofs.«419830_j9062380994847_2_alg».proof.Proof.Gen.KernelIdeal.Launch
import proofs.«419830_j9062380994847_2_alg».proof.Proof.Gen.KernelIdeal.Points
import proofs.«419830_j9062380994847_2_alg».proof.Proof.Gen.KernelIdeal.Frame
import proofs.«419830_j9062380994847_2_alg».proof.Proof.Gen.ReferenceIdeal
import proofs.«419830_j9062380994847_2_alg».proof.Proof.Gen.ReferenceIdeal.Run
import proofs.«419830_j9062380994847_2_alg».proof.Proof.Gen.ReferenceIdeal.Read
import proofs.«419830_j9062380994847_2_alg».proof.Proof.Gen.Pre_finite_inputs
import proofs.«419830_j9062380994847_2_alg».proof.Proof.KernelResult
import proofs.«419830_j9062380994847_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, on the precondition's domain, both programs end with the same two
    results: the kernel's are `Result.out` and `Result.rel` of its arguments, the reference's run states its own
    terms, and the bridge identifies them once the reference's arguments are rewritten to the kernel's. -/
theorem algebraic : Cert.algebraic_KernelIdeal_ReferenceIdeal := by
  intro m ρ m' ρ' hpre hagree
  refine ⟨fun c => Cert.KernelIdeal.Result.out m c, fun c => Cert.KernelIdeal.Result.rel m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, _, _, h10⟩ := hagree c
    rw [h0, h1, h2, h3, h4, h5, h6, h7, h10, Cert.ReferenceIdeal.Read.val_main_v31_eq]
    exact (Cert.Bridge.out_eq _ _ _ _ _ _ _ _ _ (Cert.Domain.holds_of_pre _ _ _ _ _ _ _ _ _ _ _ (hpre c))).symm
  · obtain ⟨_, h1, _, _, _, _, _, _, _, h9, _⟩ := hagree c
    rw [h1, h9, Cert.ReferenceIdeal.Read.val_main_v33_eq]
    exact (Cert.Bridge.rel_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
